-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S40 .f32) (main_arg5 : FVec F S1600000 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x256 .f32) (main_arg1 : FVec F S256x128 .f32) (main_arg2 : FVec F S128 .f32) (main_arg3 : FVec F S128x40 .f32) (main_arg4 : FVec F S40 .f32) (main_arg5 : FVec F S1600000 .f32) (main_arg6 : IVec S1600000 32) (main_arg7 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_arg5 main_v13 main_v16
-- ==== Kernel.lean ====
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S100000x128 : Shape := ⟨2, ![100000, 128]⟩
abbrev S4000x256 : Shape := ⟨2, ![4000, 256]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 46
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x40, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x40, .f32⟩
  | .hbm, ⟨37, _⟩ => ⟨S1600000x1, .f32⟩
  | .hbm, ⟨38, _⟩ => ⟨S1600000x40, .f32⟩
  | .hbm, ⟨39, _⟩ => ⟨S1600000x40, .f32⟩
  | .hbm, ⟨40, _⟩ => ⟨S_, .f32⟩
  | .hbm, ⟨41, _⟩ => ⟨S100000x40, .f32⟩
  | .hbm, ⟨42, _⟩ => ⟨S1600000x1, .i32⟩
  | .hbm, ⟨43, _⟩ => ⟨S100000x40, .f32⟩
  | .hbm, ⟨44, _⟩ => ⟨S1x40, .f32⟩
  | .hbm, ⟨45, _⟩ => ⟨S100000x40, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x40, .f32⟩
  | .local _ .vmem, ⟨13, _⟩ => ⟨S4000x40, .f32⟩
  | .local _ .vmem, ⟨14, _⟩ => ⟨S4000x40, .f32⟩
  | .local _ .vmem, ⟨15, _⟩ => ⟨S4000x40, .f32⟩
  | .local _ .vmem, ⟨16, _⟩ => ⟨S4000x40, .f32⟩
  | .local _ .vmem, ⟨17, _⟩ => ⟨S1x40, .f32⟩
  | .local _ .vmem, ⟨18, _⟩ => ⟨S4000x40, .f32⟩
  | .local _ .vmem, ⟨19, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x40.size a ≤ S100000x40.size a
  hwx3_0 : ∀ i : grid3.Coords, EltTy.bits .f32 = 32 ∨ (Rect.block (s := S100000x40) S4000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x40.size a ≤ S100000x40.size a
  hwx3_2 : ∀ i : grid3.Coords, EltTy.bits .f32 = 32 ∨ (Rect.block (s := S100000x40) S4000x40.size (cc3_transform_2 i) (hinb3_2 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S4000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S4000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x40, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x40, .f32⟩
  | .hbm, ⟨41, _⟩ => ⟨S1600000x1, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x40, .f32⟩
  | .hbm, ⟨65, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  A two-layer graph convolution as whole-array functions of extended reals.

  One layer multiplies the node features by a weight matrix (`rowsTimes`: entry (r, c) is the sum over q of
  X (r, q) · W (q, c)), gathers the product's rows along the edges' sources, scales each by its edge's weight and adds
  them up at the edges' destinations; that edge aggregation is the same host computation in both programs and is never
  opened here. Between the layers a bias is added along the columns and the negative part is cut off (`biasRelu`);
  after the second layer a bias is added and every row is normalised by its log-sum-exp, computed stably by
  shifting the row by its maximum (`biasLogSoftmax`).
-/
import Idealize.ShloMosaic.PureOps.Ideal
import Idealize.ShloMosaic.PureOps.Ideal.Laws
import Idealize.ShloMosaic.Lib.ValueIdx
import Mathlib.Data.Finset.Fold

noncomputable section

namespace Cert.Spec

open Idealize.ShloMosaic Idealize.ShloMosaic.ValueIdx

/-- Rows of `X` times columns of `W`: entry (r, c) is `∑ q, X (r, q) · W (q, c)`. -/
def rowsTimes {n k p : Nat} (X : (⟨2, ![n, k]⟩ : Shape).Idx → EReal) (W : (⟨2, ![k, p]⟩ : Shape).Idx → EReal) :
    (⟨2, ![n, p]⟩ : Shape).Idx → EReal :=
  fun i => ∑ q : Fin k, X (ix2 (n0 := n) (n1 := k) (i 0) q) * W (ix2 (n0 := k) (n1 := p) q (i 1))

/-- The float zero's word read as an extended real (it is `0`). -/
abbrev zeroWord : EReal := Ideal.ofBits .f32 0x00000000#32

/-- The word of minus infinity read as an extended real. -/
abbrev negInfWord : EReal := Ideal.ofBits .f32 0xFF800000#32

/-- Add the bias of each column (`b` is a function of the column), then keep the positive part. -/
def biasRelu {n d : Nat} (A : (⟨2, ![n, d]⟩ : Shape).Idx → EReal) (b : Fin d → EReal) :
    (⟨2, ![n, d]⟩ : Shape).Idx → EReal :=
  fun i => max (A i + b (i 1)) zeroWord

/-- Entry (r, j) of the biased scores. -/
def biased {n d : Nat} (A : (⟨2, ![n, d]⟩ : Shape).Idx → EReal) (b : Fin d → EReal) (r : Fin n) (j : Fin d) : EReal :=
  A (ix2 (n0 := n) (n1 := d) r j) + b j

/-- The largest biased score of row `r` (the fold of `max` from minus infinity over the row). -/
def rowMax {n d : Nat} (A : (⟨2, ![n, d]⟩ : Shape).Idx → EReal) (b : Fin d → EReal) (r : Fin n) : EReal :=
  (Finset.univ : Finset (Fin d)).fold max negInfWord (biased A b r)

/-- The row-wise log-softmax of the biased scores: `(z − m) − log ∑ⱼ exp (zⱼ − m)` with `m` the row's maximum. -/
def biasLogSoftmax {n d : Nat} (A : (⟨2, ![n, d]⟩ : Shape).Idx → EReal) (b : Fin d → EReal) :
    (⟨2, ![n, d]⟩ : Shape).Idx → EReal :=
  fun i => (biased A b (i 0) (i 1) - rowMax A b (i 0))
    - Ideal.log (∑ j : Fin d, Ideal.exp (biased A b (i 0) j - rowMax A b (i 0)))

/-- The log-softmax read at (r, c). -/
theorem biasLogSoftmax_apply {n d : Nat} (A : (⟨2, ![n, d]⟩ : Shape).Idx → EReal) (b : Fin d → EReal) (r : Fin n) (c : Fin d) :
    biasLogSoftmax A b (ix2 (n0 := n) (n1 := d) r c)
      = (biased A b r c - rowMax A b r) - Ideal.log (∑ j : Fin d, Ideal.exp (biased A b r j - rowMax A b r)) := rfl

/-- The fold of `max` from a starting value never falls below that value, so taking the maximum with it again
    changes nothing. -/
theorem max_fold_max {ι : Type} (s : Finset ι) (b : EReal) (f : ι → EReal) :
    max b (s.fold max b f) = s.fold max b f :=
  max_eq_right ((Finset.le_fold_max b).mpr (Or.inl le_rfl))

end Cert.Spec

end
-- ==== Proof.FeatureProduct1.lean ====
/-
  The first kernel region: node features `X` ([100000, 256]) times the first weight matrix `W` ([256, 128]).

  The region walks 25 blocks of 4000 rows of `X`; the weight matrix is one whole block, the same at every point. At a
  block the body multiplies the 4000 rows by the matrix into a zero accumulator (the change of float format before
  the product is the identity on extended reals), so entry (p, c) of what it stores is the sum over q of
  block (p, q) · W (q, c) (`pay_apply`: a cast of the block to its own shape is the identity; the product's contraction index is re-indexed by `Fin 256`, the operands'
  indices read off the product's dimension record axis by axis). Row `p` of block `t` is row `4000 t + p` of `X`, so
  what block `t` writes back is block `t` of the whole product `Spec.rowsTimes X W` (`flushed_eq`); the blocks tile
  the rows (`covered`), hence the region leaves the whole product (`out_eq`).
-/
import proofs.«170724_j11647951307437_1_alg».proof.Proof.Gen.KernelIdeal.Frame
import proofs.«170724_j11647951307437_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! The operands' indices of the block product, axis by axis: the left operand is read at (row of the output, contraction
    index), the right one at (contraction index, column of the output). -/

theorem lhs_0 (i : S4000x128.Idx) (k : dot_S4000x256_S256x128_S4000x128_1_0_0_1_n_n.contr.Idx) :
    (dot_S4000x256_S256x128_S4000x128_1_0_0_1_n_n.lhsIdx i k 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_1 (i : S4000x128.Idx) (k : dot_S4000x256_S256x128_S4000x128_1_0_0_1_n_n.contr.Idx) :
    (dot_S4000x256_S256x128_S4000x128_1_0_0_1_n_n.lhsIdx i k 1).val = (k ⟨0, by decide⟩).val :=
  dot_S4000x256_S256x128_S4000x128_1_0_0_1_n_n.lhsIdx_val_of_single rfl i k
theorem rhs_0 (i : S4000x128.Idx) (k : dot_S4000x256_S256x128_S4000x128_1_0_0_1_n_n.contr.Idx) :
    (dot_S4000x256_S256x128_S4000x128_1_0_0_1_n_n.rhsIdx i k 0).val = (k ⟨0, by decide⟩).val :=
  dot_S4000x256_S256x128_S4000x128_1_0_0_1_n_n.rhsIdx_val_of_single rfl i k
theorem rhs_1 (i : S4000x128.Idx) (k : dot_S4000x256_S256x128_S4000x128_1_0_0_1_n_n.contr.Idx) :
    (dot_S4000x256_S256x128_S4000x128_1_0_0_1_n_n.rhsIdx i k 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, c) of what the body stores: the row of the block times the column of the matrix. -/
theorem pay_apply (x0 : Vec Ideal S4000x256 .f32) (x1 : Vec Ideal S256x128 .f32) (p : Fin 4000) (q : Fin 128) :
    k0_pay1 x0 x1 (ix2 p q) = ∑ k : Fin 256, x0 (ix2 p k) * x1 (ix2 k q) := by
  unfold k0_pay1
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_0 _ _
    | ⟨1, _⟩ => exact (lhs_1 _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_0 _ _).trans hk
    | ⟨1, _⟩ => exact rhs_1 _ _)
  rw [el, er]
  simp only [truncf_apply, shapeCast_self]

/-- The two arrays the region finds at its operands. -/
abbrev lhsArr (c : Dev nD) : S100000x256.Idx → EReal := V c main_arg0
abbrev rhsArr (c : Dev nD) : S256x128.Idx → EReal := V c main_arg1

/-- The printed index maps over the grid: the input rows move with the output rows, the matrix window stays. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (Spec.rowsTimes (n := 100000) (k := 256) (p := 128) (lhsArr V c) (rhsArr V c)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x128) hz]
  obtain ⟨e0, e1, e2, e3, e4, e5⟩ := idx_facts t
  funext j
  obtain ⟨p, q, rfl⟩ : ∃ (p : Fin 4000) (q : Fin 128), j = ix2 p q := ⟨j 0, j 1, eq_ix2 j⟩
  refine (pay_apply _ _ p q).trans ?_
  show ∑ k : Fin 256, lhsArr V c (((cfg0.win 0).blk t).view.emb (ix2 p k)) * rhsArr V c (((cfg0.win 1).blk t).view.emb (ix2 k q))
      = ∑ k : Fin 256, lhsArr V c (ix2 ((((cfg0.win 2).blk t).view.emb (ix2 p q)) 0) k) * rhsArr V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]
  rfl

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v0).slice (win0_2.rect t)).set ↔ _
  rw [View.set_slice_whole, Rect.mem_set_unit]
  exact Iff.rfl

/-- Every row lies in the block of the point `row / 4000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e0, e1, e2, e3, e4, e5⟩ := idx_facts t
  refine ⟨t, flush0_2 t, ?_⟩
  rw [mem_blk]
  intro a
  have ht : t.val = (i 0).val / 4000 := rfl
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The array the region leaves: the whole product. -/
theorem out_eq (c : Dev nD) :
    (dat0 V c).arrAt 2 cfg0.N = Spec.rowsTimes (n := 100000) (k := 256) (p := 128) (lhsArr V c) (rhsArr V c) :=
  (dat0 V c).arrAt_eq_of_cover 2 _ (fun t _ => flushed_eq V c t) covered

end Cert.KernelIdeal.Product1

end
-- ==== Proof.HiddenLayer.lean ====
/-
  The second kernel region: from the aggregated first-layer products `A` (a [100000, 128] array) and the bias row
  (a [1, 128] array) to the hidden activations `max (A (r, c) + bias c) 0`.

  The region walks 25 blocks of 4000 rows. At a block the body loads the 4000 rows and the one bias row, broadcasts the
  row down the block, adds and cuts off the negative part, so entry (p, c) of what it stores is
  `max (block (p, c) + bias (0, c)) 0` (`pay_apply`). Row `p` of block `t` is row `4000 t + p` of the array, the bias
  window is the same whole row at every block, and the output block sits on the same rows: so what block `t` writes
  back is block `t` of one whole-array function, `Spec.biasRelu` (`flushed_eq`). The 25 blocks tile the rows
  (`covered`), hence the array the region leaves is that function (`out_eq`).
-/
import proofs.«170724_j11647951307437_1_alg».proof.Proof.Gen.KernelIdeal.Frame
import proofs.«170724_j11647951307437_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (p, c) of what the body stores: the block's entry plus the bias row's entry of that column, cut off at zero. -/
theorem pay_apply (x0 : Vec Ideal S4000x128 .f32) (x1 : Vec Ideal S1x128 .f32) (p : Fin 4000) (q : Fin 128) :
    k1_pay1 x0 x1 (ix2 p q) = max (x0 (ix2 p q) + x1 (ix2 (0 : Fin 1) q)) Spec.zeroWord := by
  unfold k1_pay1
  simp only [maximumf_apply, addf_apply, shapeCast_self, broadcastTo_1b_ab_apply, broadcast_apply]
  rfl

/-- The array the region finds at its first operand, and the bias as a function of the column. -/
abbrev agg (c : Dev nD) : S100000x128.Idx → EReal := V c main_v13
abbrev biasRow (c : Dev nD) : S1x128.Idx → EReal := V c main_v14
abbrev bias (c : Dev nD) (q : Fin 128) : EReal := biasRow V c (ix2 (0 : Fin 1) q)

/-- The printed index maps over the grid: the input rows move with the output rows, the bias window stays. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` writes back is block `t` of the whole-array function. -/
theorem flushed_eq (c : Dev nD) (t : Fin cfg1.N) :
    (dat1 V c).flushed 2 t = ((cfg1.win 2).blk t).view.read (Elt Ideal) (Spec.biasRelu (n := 100000) (d := 128) (agg V c) (bias V c)) := by
  show (cfg1.win 2).cut (grid1.coords t) ((dat1 V c).after 2 t) = _
  rw [after1_2]
  unfold out1_2
  rw [View.canon_unit_zero hz]
  simp only [View.ld_unit_zero (S := S4000x128) hz, View.ld_unit_zero (S := S1x128) hz]
  obtain ⟨e0, e1, e2, e3, e4, e5⟩ := idx_facts t
  funext j
  obtain ⟨p, q, rfl⟩ : ∃ (p : Fin 4000) (q : Fin 128), j = ix2 p q := ⟨j 0, j 1, eq_ix2 j⟩
  refine (pay_apply _ _ p q).trans ?_
  show max (agg V c (((cfg1.win 0).blk t).view.emb (ix2 p q)) + biasRow V c (((cfg1.win 1).blk t).view.emb (ix2 (0 : Fin 1) q))) Spec.zeroWord
      = max (agg V c (((cfg1.win 2).blk t).view.emb (ix2 p q)) + biasRow V c (ix2 (0 : Fin 1) ((((cfg1.win 2).blk t).view.emb (ix2 p q)) 1))) Spec.zeroWord
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v15).slice (win1_2.rect t)).set ↔ _
  rw [View.set_slice_whole, Rect.mem_set_unit]
  exact Iff.rfl

/-- Every row lies in the block of the point `row / 4000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨e0, e1, e2, e3, e4, e5⟩ := idx_facts t
  refine ⟨t, flush1_2 t, ?_⟩
  rw [mem_blk]
  intro a
  have ht : t.val = (i 0).val / 4000 := rfl
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The array the region leaves: bias added along the columns, negative part cut off. -/
theorem out_eq (c : Dev nD) :
    (dat1 V c).arrAt 2 cfg1.N = Spec.biasRelu (n := 100000) (d := 128) (agg V c) (bias V c) :=
  (dat1 V c).arrAt_eq_of_cover 2 _ (fun t _ => flushed_eq V c t) covered

end Cert.KernelIdeal.Hidden

end
-- ==== Proof.FeatureProduct2.lean ====
/-
  The third kernel region: hidden activations `X` ([100000, 128]) times the second weight matrix `W` ([128, 40]).

  The region walks 25 blocks of 4000 rows of `X`; the weight matrix is one whole block, the same at every point. At a
  block the body multiplies the 4000 rows by the matrix into a zero accumulator (the change of float format before
  the product is the identity on extended reals), so entry (p, c) of what it stores is the sum over q of
  block (p, q) · W (q, c) (`pay_apply`: a cast of the block to its own shape is the identity; the product's contraction index is re-indexed by `Fin 128`, the operands'
  indices read off the product's dimension record axis by axis). Row `p` of block `t` is row `4000 t + p` of `X`, so
  what block `t` writes back is block `t` of the whole product `Spec.rowsTimes X W` (`flushed_eq`); the blocks tile
  the rows (`covered`), hence the region leaves the whole product (`out_eq`).
-/
import proofs.«170724_j11647951307437_1_alg».proof.Proof.Gen.KernelIdeal.Frame
import proofs.«170724_j11647951307437_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! The operands' indices of the block product, axis by axis: the left operand is read at (row of the output, contraction
    index), the right one at (contraction index, column of the output). -/

theorem lhs_0 (i : S4000x40.Idx) (k : dot_S4000x128_S128x40_S4000x40_1_0_0_1_n_n.contr.Idx) :
    (dot_S4000x128_S128x40_S4000x40_1_0_0_1_n_n.lhsIdx i k 0).val = (i 0).val := by
  unfold DotDims.lhsIdx
  rw [dif_neg (show ¬(0 : Fin S4000x128.rank) ∈ dot_S4000x128_S128x40_S4000x40_1_0_0_1_n_n.lhsBatch by decide), dif_pos (show (0 : Fin S4000x128.rank) ∈ dot_S4000x128_S128x40_S4000x40_1_0_0_1_n_n.lhsNonContracting by decide)]
  rfl
theorem lhs_1 (i : S4000x40.Idx) (k : dot_S4000x128_S128x40_S4000x40_1_0_0_1_n_n.contr.Idx) :
    (dot_S4000x128_S128x40_S4000x40_1_0_0_1_n_n.lhsIdx i k 1).val = (k ⟨0, by decide⟩).val :=
  dot_S4000x128_S128x40_S4000x40_1_0_0_1_n_n.lhsIdx_val_of_single rfl i k
theorem rhs_0 (i : S4000x40.Idx) (k : dot_S4000x128_S128x40_S4000x40_1_0_0_1_n_n.contr.Idx) :
    (dot_S4000x128_S128x40_S4000x40_1_0_0_1_n_n.rhsIdx i k 0).val = (k ⟨0, by decide⟩).val :=
  dot_S4000x128_S128x40_S4000x40_1_0_0_1_n_n.rhsIdx_val_of_single rfl i k
theorem rhs_1 (i : S4000x40.Idx) (k : dot_S4000x128_S128x40_S4000x40_1_0_0_1_n_n.contr.Idx) :
    (dot_S4000x128_S128x40_S4000x40_1_0_0_1_n_n.rhsIdx i k 1).val = (i 1).val := by
  unfold DotDims.rhsIdx
  rw [dif_neg (show ¬(1 : Fin S128x40.rank) ∈ dot_S4000x128_S128x40_S4000x40_1_0_0_1_n_n.rhsBatch by decide), dif_pos (show (1 : Fin S128x40.rank) ∈ dot_S4000x128_S128x40_S4000x40_1_0_0_1_n_n.rhsNonContracting by decide)]
  rfl

/-- Entry (p, c) of what the body stores: the row of the block times the column of the matrix. -/
theorem pay_apply (x0 : Vec Ideal S4000x128 .f32) (x1 : Vec Ideal S128x40 .f32) (p : Fin 4000) (q : Fin 40) :
    k2_pay1 x0 x1 (ix2 p q) = ∑ k : Fin 128, x0 (ix2 p k) * x1 (ix2 k q) := by
  unfold k2_pay1
  simp only [matmul]
  rw [Ideal.matmul_constant_zero_apply, ← Equiv.sum_comp (contrEquiv1 dot_S4000x128_S128x40_S4000x40_1_0_0_1_n_n 128 rfl rfl).symm]
  refine Finset.sum_congr rfl fun k _ => ?_
  have hk := contrEquiv1_symm_val dot_S4000x128_S128x40_S4000x40_1_0_0_1_n_n 128 rfl rfl k
  have el : dot_S4000x128_S128x40_S4000x40_1_0_0_1_n_n.lhsIdx (ix2 p q) ((contrEquiv1 dot_S4000x128_S128x40_S4000x40_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x40_S4000x40_1_0_0_1_n_n.rhsIdx (ix2 p q) ((contrEquiv1 dot_S4000x128_S128x40_S4000x40_1_0_0_1_n_n 128 rfl rfl).symm k) = ix2 k q := funext fun a => Fin.ext (by
    match a with
    | ⟨0, _⟩ => exact (rhs_0 _ _).trans hk
    | ⟨1, _⟩ => exact rhs_1 _ _)
  rw [el, er]
  simp only [truncf_apply, shapeCast_self]

/-- The two arrays the region finds at its operands. -/
abbrev lhsArr (c : Dev nD) : S100000x128.Idx → EReal := V c main_v15
abbrev rhsArr (c : Dev nD) : S128x40.Idx → EReal := V c main_arg3

/-- The printed index maps over the grid: the input rows move with the output rows, the matrix window stays. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (Spec.rowsTimes (n := 100000) (k := 128) (p := 40) (lhsArr V c) (rhsArr V c)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x40) hz]
  obtain ⟨e0, e1, e2, e3, e4, e5⟩ := idx_facts t
  funext j
  obtain ⟨p, q, rfl⟩ : ∃ (p : Fin 4000) (q : Fin 40), j = ix2 p q := ⟨j 0, j 1, eq_ix2 j⟩
  refine (pay_apply _ _ p q).trans ?_
  show ∑ k : Fin 128, lhsArr V c (((cfg2.win 0).blk t).view.emb (ix2 p k)) * rhsArr V c (((cfg2.win 1).blk t).view.emb (ix2 k q))
      = ∑ k : Fin 128, lhsArr V c (ix2 ((((cfg2.win 2).blk t).view.emb (ix2 p q)) 0) k) * rhsArr V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 40 + 1 * q.val = win2_2.index t (1 : Fin 2) * 40 + 1 * q.val; omega
  rw [h0, h1]
  rfl

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S4000x40.size a ≤ (i a).val ∧ (i a).val < win2_2.index t a * S4000x40.size a + S4000x40.size a := by
  show i ∈ ((View.whole main_v16).slice (win2_2.rect t)).set ↔ _
  rw [View.set_slice_whole, Rect.mem_set_unit]
  exact Iff.rfl

/-- Every row lies in the block of the point `row / 4000`. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 25 := N_2
  let t : Fin cfg2.N := ⟨(i 0).val / 4000, by rw [hN]; omega⟩
  obtain ⟨e0, e1, e2, e3, e4, e5⟩ := idx_facts t
  refine ⟨t, flush2_2 t, ?_⟩
  rw [mem_blk]
  intro a
  have ht : t.val = (i 0).val / 4000 := rfl
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 40 ≤ (i 1).val ∧ (i 1).val < win2_2.index t (1 : Fin 2) * 40 + 40; omega

/-- The array the region leaves: the whole product. -/
theorem out_eq (c : Dev nD) :
    (dat2 V c).arrAt 2 cfg2.N = Spec.rowsTimes (n := 100000) (k := 128) (p := 40) (lhsArr V c) (rhsArr V c) :=
  (dat2 V c).arrAt_eq_of_cover 2 _ (fun t _ => flushed_eq V c t) covered

end Cert.KernelIdeal.Product2

end
-- ==== Proof.LogSoftmax.lean ====
/-
  The last kernel region: from the aggregated second-layer products `A` ([100000, 40]) and the bias row ([1, 40]) to
  the row-wise log-softmax of the biased scores.

  The region walks 25 blocks of 4000 rows. At a block the body forms the biased scores `z (p, j) = block (p, j) + bias (0, j)`
  (`scores`), shifts every row by its largest score (`shifted`: the row maximum is a fold of `max` from minus infinity,
  laid back over the row as a column) and subtracts from every entry the logarithm of the row's sum of exponentials
  (`normalised`). Read at an entry (p, c) this is `(z (p, c) − M p) − log ∑ⱼ exp (z (p, j) − M p)` (`pay_apply`), which
  depends on row `p` of the block only. Row `p` of block `t` is row `4000 t + p` of the array and the bias window is
  the same whole row at every block, so what block `t` writes back is block `t` of `Spec.biasLogSoftmax`
  (`flushed_eq`); the blocks tile the rows (`covered`), hence the region leaves that function (`out_eq`).
-/
import proofs.«170724_j11647951307437_1_alg».proof.Proof.Gen.KernelIdeal.Frame
import proofs.«170724_j11647951307437_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## A per-row value laid out as a column and broadcast over the row -/

/-- A [4000] vector cast to a [4000, 1] column reads, at (p, u), the vector at p. -/
theorem column_apply {α : Type} (v : S4000.Idx → α) (h : S4000.ShapeCasts S4000x1) (p : Fin 4000) (u : Fin 1) :
    shapeCast S4000x1 v h (ix2 p u) = v (ix1 p) :=
  shapeCast_apply v h _ _ (by
    have hu : u.val = 0 := by omega
    rw [Shape.rowMajor_val_one, Shape.rowMajor_val_two]
    show p.val = p.val * 1 + u.val
    omega)

/-- A [4000, 1] column broadcast to [4000, 40] reads, at (p, c), the column at (p, 0). -/
theorem spread_apply {α : Type} (w : S4000x1.Idx → α) (h : S4000x1.Broadcasts S4000x40) (p : Fin 4000) (q : Fin 40) :
    broadcastTo S4000x40 w h (ix2 p q) = w (ix2 p (0 : Fin 1)) := by
  refine broadcastTo_apply w h (ix2 p q) (ix2 p (0 : Fin 1)) fun ax => ?_
  match ax with
  | ⟨0, _⟩ => show p.val = if (4000 : Nat) = 1 then 0 else p.val; rw [if_neg (by decide)]
  | ⟨1, _⟩ => show 0 = if (1 : Nat) = 1 then 0 else q.val; rw [if_pos rfl]

/-! ## The two row reductions read at a row -/

/-- The row maximum: the fold of `max` from minus infinity over the row's entries. -/
theorem rowMax_apply (v : FVec Ideal S4000x40 .f32) (hφ : FKind.Formats .f32) (hacc : (0xFF800000#32 : BitVec 32) = 0xFF800000#32) (p : Fin 4000) :
    multiReduction .maximumf [1] S4000 v 0xFF800000#32 reduces_S4000x40_S4000 hφ hacc (ix1 p)
      = (Finset.univ : Finset (Fin 40)).fold max Spec.negInfWord (fun j => v (ix2 p j)) := by
  refine (Ideal.multiReduction_maximumf_single v 0xFF800000#32 reduces_S4000x40_S4000 hφ hacc (ix1 p)).trans ?_
  show (Finset.univ : Finset (Fin 40)).fold max Spec.negInfWord (v ∘ reduces_S4000x40_S4000.lift (ix1 p)) = _
  refine congrArg (fun f => (Finset.univ : Finset (Fin 40)).fold max Spec.negInfWord f) (funext fun j => ?_)
  exact congrArg v (funext fun a => Fin.ext (by match a with | ⟨0, _⟩ => rfl | ⟨1, _⟩ => rfl))

/-- The row sum: the sum of the row's entries. -/
theorem rowSum_apply (v : FVec Ideal S4000x40 .f32) (hφ : FKind.Formats .f32) (hacc : (0x00000000#32 : BitVec 32) = 0x00000000#32) (p : Fin 4000) :
    multiReduction .add [1] S4000 v 0x00000000#32 reduces_S4000x40_S4000 hφ hacc (ix1 p) = ∑ j : Fin 40, v (ix2 p j) := by
  refine (Ideal.multiReduction_add_single v 0x00000000#32 reduces_S4000x40_S4000 hφ hacc (ix1 p)).trans ?_
  show ∑ j : Fin 40, v (reduces_S4000x40_S4000.lift (ix1 p) j) = _
  refine Finset.sum_congr rfl fun j _ => ?_
  exact congrArg v (funext fun a => Fin.ext (by match a with | ⟨0, _⟩ => rfl | ⟨1, _⟩ => rfl))

/-! ## The body's three steps -/

/-- The biased scores of a block. -/
def scores (x0 : Vec Ideal S4000x40 .f32) (x1 : Vec Ideal S1x40 .f32) : FVec Ideal S4000x40 .f32 :=
  addf (shapeCast S4000x40 x0 shapeCasts_S4000x40_S4000x40) (broadcastTo S4000x40 (shapeCast S1x40 x1 shapeCasts_S1x40_S1x40) broadcasts_S1x40_S4000x40)

theorem scores_apply (x0 : Vec Ideal S4000x40 .f32) (x1 : Vec Ideal S1x40 .f32) (p : Fin 4000) (q : Fin 40) :
    scores x0 x1 (ix2 p q) = x0 (ix2 p q) + x1 (ix2 (0 : Fin 1) q) := by
  unfold scores
  simp only [addf_apply, shapeCast_self, broadcastTo_1b_ab_apply]

/-- Every row shifted by its maximum. -/
def shifted (z : FVec Ideal S4000x40 .f32) : FVec Ideal S4000x40 .f32 :=
  subf z (broadcastTo S4000x40 (shapeCast S4000x1 (multiReduction .maximumf [1] S4000 z 0xFF800000#32 reduces_S4000x40_S4000 (.inl rfl) rfl) shapeCasts_S4000_S4000x1) broadcasts_S4000x1_S4000x40)

theorem shifted_apply (z : FVec Ideal S4000x40 .f32) (p : Fin 4000) (q : Fin 40) :
    shifted z (ix2 p q) = z (ix2 p q) - (Finset.univ : Finset (Fin 40)).fold max Spec.negInfWord (fun j => z (ix2 p j)) := by
  unfold shifted
  rw [subf_apply, spread_apply, column_apply]
  exact congrArg (fun y => z (ix2 p q) - y) (rowMax_apply z (.inl rfl) rfl p)

/-- Every row less the logarithm of its sum of exponentials. -/
def normalised (s : FVec Ideal S4000x40 .f32) : FVec Ideal S4000x40 .f32 :=
  subf s (broadcastTo S4000x40 (log (shapeCast S4000x1 (multiReduction .add [1] S4000 (exp s) 0x00000000#32 reduces_S4000x40_S4000 (.inl rfl) rfl) shapeCasts_S4000_S4000x1)) broadcasts_S4000x1_S4000x40)

theorem normalised_apply (s : FVec Ideal S4000x40 .f32) (p : Fin 4000) (q : Fin 40) :
    normalised s (ix2 p q) = s (ix2 p q) - Ideal.log (∑ j : Fin 40, Ideal.exp (s (ix2 p j))) := by
  unfold normalised
  rw [subf_apply, spread_apply]
  show s (ix2 p q) - Ideal.log (shapeCast S4000x1 (multiReduction .add [1] S4000 (exp s) 0x00000000#32 reduces_S4000x40_S4000 (.inl rfl) rfl) shapeCasts_S4000_S4000x1 (ix2 p (0 : Fin 1))) = _
  rw [column_apply]
  exact congrArg (fun y => s (ix2 p q) - Ideal.log y) (rowSum_apply (exp s) (.inl rfl) rfl p)

/-- The body's stored value is the three steps in turn. -/
theorem pay_eq (x0 : Vec Ideal S4000x40 .f32) (x1 : Vec Ideal S1x40 .f32) : k3_pay1 x0 x1 = normalised (shifted (scores x0 x1)) := rfl

/-- Entry (p, c) of what the body stores, in terms of row `p` of the block and the bias row. -/
theorem pay_apply (x0 : Vec Ideal S4000x40 .f32) (x1 : Vec Ideal S1x40 .f32) (p : Fin 4000) (q : Fin 40) :
    k3_pay1 x0 x1 (ix2 p q)
      = (x0 (ix2 p q) + x1 (ix2 (0 : Fin 1) q) - (Finset.univ : Finset (Fin 40)).fold max Spec.negInfWord (fun j => x0 (ix2 p j) + x1 (ix2 (0 : Fin 1) j)))
        - Ideal.log (∑ j : Fin 40, Ideal.exp (x0 (ix2 p j) + x1 (ix2 (0 : Fin 1) j)
            - (Finset.univ : Finset (Fin 40)).fold max Spec.negInfWord (fun j => x0 (ix2 p j) + x1 (ix2 (0 : Fin 1) j)))) := by
  rw [pay_eq, normalised_apply]
  simp only [shifted_apply, scores_apply]

/-! ## From blocks to the array -/

/-- The array the region finds at its first operand, the bias row, and the bias as a function of the column. -/
abbrev agg (c : Dev nD) : S100000x40.Idx → EReal := V c main_v29
abbrev biasRow (c : Dev nD) : S1x40.Idx → EReal := V c main_v30
abbrev bias (c : Dev nD) (q : Fin 40) : EReal := biasRow V c (ix2 (0 : Fin 1) q)

/-- The printed index maps over the grid: the input rows move with the output rows, the bias window stays. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

/-- What point `t` writes back is block `t` of the whole-array function. -/
theorem flushed_eq (c : Dev nD) (t : Fin cfg3.N) :
    (dat3 V c).flushed 2 t = ((cfg3.win 2).blk t).view.read (Elt Ideal) (Spec.biasLogSoftmax (n := 100000) (d := 40) (agg V c) (bias V c)) := by
  show (cfg3.win 2).cut (grid3.coords t) ((dat3 V c).after 2 t) = _
  rw [after3_2]
  unfold out3_2
  rw [View.canon_unit_zero hz]
  simp only [View.ld_unit_zero (S := S4000x40) hz, View.ld_unit_zero (S := S1x40) hz]
  obtain ⟨e0, e1, e2, e3, e4, e5⟩ := idx_facts t
  have hN : cfg3.N = 25 := N_3
  have htl : t.val < 25 := hN ▸ t.isLt
  funext j
  obtain ⟨p, q, rfl⟩ : ∃ (p : Fin 4000) (q : Fin 40), j = ix2 p q := ⟨j 0, j 1, eq_ix2 j⟩
  refine (pay_apply _ _ p q).trans ?_
  -- the row of the array this entry sits on
  let r : Fin 100000 := ⟨win3_2.index t (0 : Fin 2) * 4000 + 1 * p.val, by omega⟩
  have hout : ((cfg3.win 2).blk t).view.emb (ix2 p q) = ix2 r q := by
    funext a; apply Fin.ext
    match a with
    | ⟨0, _⟩ => rfl
    | ⟨1, _⟩ => show win3_2.index t (1 : Fin 2) * 40 + 1 * q.val = q.val; omega
  have h0 : ∀ j : Fin 40, ((cfg3.win 0).blk t).view.emb (ix2 p j) = ix2 r j := fun j => by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 40 + 1 * j.val = j.val; omega
  have h1 : ∀ j : Fin 40, ((cfg3.win 1).blk t).view.emb (ix2 (0 : Fin 1) j) = ix2 (0 : Fin 1) j := fun j => by
    funext a; apply Fin.ext
    match a with
    | ⟨0, _⟩ => show win3_1.index t (0 : Fin 2) * 1 + 1 * 0 = 0; omega
    | ⟨1, _⟩ => show win3_1.index t (1 : Fin 2) * 40 + 1 * j.val = j.val; omega
  show (agg V c (((cfg3.win 0).blk t).view.emb (ix2 p q)) + biasRow V c (((cfg3.win 1).blk t).view.emb (ix2 (0 : Fin 1) q))
          - (Finset.univ : Finset (Fin 40)).fold max Spec.negInfWord (fun j => agg V c (((cfg3.win 0).blk t).view.emb (ix2 p j)) + biasRow V c (((cfg3.win 1).blk t).view.emb (ix2 (0 : Fin 1) j))))
        - Ideal.log (∑ j : Fin 40, Ideal.exp (agg V c (((cfg3.win 0).blk t).view.emb (ix2 p j)) + biasRow V c (((cfg3.win 1).blk t).view.emb (ix2 (0 : Fin 1) j))
            - (Finset.univ : Finset (Fin 40)).fold max Spec.negInfWord (fun j => agg V c (((cfg3.win 0).blk t).view.emb (ix2 p j)) + biasRow V c (((cfg3.win 1).blk t).view.emb (ix2 (0 : Fin 1) j)))))
      = Spec.biasLogSoftmax (n := 100000) (d := 40) (agg V c) (bias V c) (((cfg3.win 2).blk t).view.emb (ix2 p q))
  rw [hout]
  simp only [h0, h1]
  rfl

/-- An index of the array is in point `t`'s block iff each coordinate is in the block's range on its axis. -/
theorem mem_blk (t : Fin cfg3.N) (i : S100000x40.Idx) :
    i ∈ ((cfg3.win 2).blk t).view.set ↔ ∀ a : Fin 2, win3_2.index t a * S4000x40.size a ≤ (i a).val ∧ (i a).val < win3_2.index t a * S4000x40.size a + S4000x40.size a := by
  show i ∈ ((View.whole main_v31).slice (win3_2.rect t)).set ↔ _
  rw [View.set_slice_whole, Rect.mem_set_unit]
  exact Iff.rfl

/-- Every row lies in the block of the point `row / 4000`. -/
theorem covered (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 25 := N_3
  let t : Fin cfg3.N := ⟨(i 0).val / 4000, by rw [hN]; omega⟩
  obtain ⟨e0, e1, e2, e3, e4, e5⟩ := idx_facts t
  refine ⟨t, flush3_2 t, ?_⟩
  rw [mem_blk]
  intro a
  have ht : t.val = (i 0).val / 4000 := rfl
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 40 ≤ (i 1).val ∧ (i 1).val < win3_2.index t (1 : Fin 2) * 40 + 40; omega

/-- The array the region leaves: the row-wise log-softmax of the biased scores. -/
theorem out_eq (c : Dev nD) :
    (dat3 V c).arrAt 2 cfg3.N = Spec.biasLogSoftmax (n := 100000) (d := 40) (agg V c) (bias V c) :=
  (dat3 V c).arrAt_eq_of_cover 2 _ (fun t _ => flushed_eq V c t) covered

end Cert.KernelIdeal.Output

end
-- ==== Proof.KernelChain.lean ====
/-
  The kernel program's result as one function of its arguments.

  The program is four kernel regions with two stretches of host operations between them. Walking the buffer contents
  from the launch to the return: the first region leaves the product of the features and the first weights; the first
  host stretch aggregates it along the edges (`aggregate128`, never opened) and reshapes the first bias to a row; the
  second region adds the bias and cuts off the negative part; the third region multiplies by the second weights; the
  second host stretch aggregates again (`aggregate40`) and reshapes the second bias; the last region takes the
  row-wise log-softmax. No region and no host operation writes an argument, so every argument is read as launched.
-/
import proofs.«170724_j11647951307437_1_alg».proof.Proof.Gen.KernelIdeal.Frame
import proofs.«170724_j11647951307437_1_alg».proof.Proof.FeatureProduct1
import proofs.«170724_j11647951307437_1_alg».proof.Proof.HiddenLayer
import proofs.«170724_j11647951307437_1_alg».proof.Proof.FeatureProduct2
import proofs.«170724_j11647951307437_1_alg».proof.Proof.LogSoftmax
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen

section HostChains
variable {F : FTy → Type} [FloatOps F]

/-- The edge aggregation at width 128: the rows of `S` gathered along the edges' sources (a negative source index counted
    from the end), each scaled by its edge's weight, added up at the edges' destinations from zero. -/
def aggregate128 (S : (⟨S100000x128, .f32⟩ : BufTy).Contents (Elt F)) (ew : (⟨S1600000, .f32⟩ : BufTy).Contents (Elt F))
    (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 S
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1 (broadcastInDim S1600000x1 ![0] bcast_S1600000_S1600000x1_0 ew)))

/-- The edge aggregation at width 40: the rows of `S` gathered along the edges' sources (a negative source index counted
    from the end), each scaled by its edge's weight, added up at the edges' destinations from zero. -/
def aggregate40 (S : (⟨S100000x40, .f32⟩ : BufTy).Contents (Elt F)) (ew : (⟨S1600000, .f32⟩ : BufTy).Contents (Elt F))
    (src dst : (⟨S1600000, .i32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (mulf (Host.gather gather_S100000x40_S1600000x1_S1600000x40_1_0_n_n_0_1_140 S
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1 (broadcastInDim S1600000x1 ![0] bcast_S1600000_S1600000x1_0 ew)))

end HostChains

variable (m : (ℓ : Loc nD τ sig) → Buf (Elt Ideal) ℓ) (ρ : Dev nD → PrngReg)

/-- No operation of a host stretch writes the buffer `b`: the stretch's operations' result buffers, one by one. -/
local macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The arguments, read at the boundaries where a region or a host stretch reads them -/

/-- The arguments as arrays of their literal shapes. -/
abbrev feats (c : Dev nD) : S100000x256.Idx → EReal := m ((c : Thread nD τ).loc main_arg0)
abbrev weights1 (c : Dev nD) : S256x128.Idx → EReal := m ((c : Thread nD τ).loc main_arg1)
abbrev bias1 (c : Dev nD) : S128.Idx → EReal := m ((c : Thread nD τ).loc main_arg2)
abbrev weights2 (c : Dev nD) : S128x40.Idx → EReal := m ((c : Thread nD τ).loc main_arg3)
abbrev bias2 (c : Dev nD) : S40.Idx → EReal := m ((c : Thread nD τ).loc main_arg4)

theorem W1_kept (c : Dev nD) (b : Ref sig .tc) (hb : ∀ w, Pipeline.arrRef spec0 w ≠ b) :
    W1 m ρ c (Proc.devRef .tc b) = m ((c : Thread nD τ).loc b) := W1_of_ne m ρ c b hb

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := by host_keeps hostOps1
    _ = m ((c : Thread nD τ).loc main_arg3) := W1_kept m ρ c main_arg3 (by decide)
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by host_keeps hostOps1
    _ = m ((c : Thread nD τ).loc main_arg4) := W1_kept m ρ c main_arg4 (by decide)
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by host_keeps hostOps1
    _ = m ((c : Thread nD τ).loc main_arg5) := W1_kept m ρ c main_arg5 (by decide)
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by host_keeps hostOps1
    _ = m ((c : Thread nD τ).loc main_arg6) := W1_kept m ρ c main_arg6 (by decide)
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := by host_keeps hostOps1
    _ = m ((c : Thread nD τ).loc main_arg7) := W1_kept m ρ c main_arg7 (by decide)

/-- The second weight matrix as the third region finds it. -/
theorem W3_arg3 (c : Dev nD) : W3 m ρ c (Proc.devRef .tc main_arg3) = m ((c : Thread nD τ).loc main_arg3) :=
  (W3_of_ne m ρ c main_arg3 (by decide)).trans (W2_arg3 m ρ c)

/-- The arguments the second host stretch reads, as the third region leaves them. -/
theorem W4_arg4 (c : Dev nD) : W4 m ρ c (Proc.devRef .tc main_arg4) = m ((c : Thread nD τ).loc main_arg4) :=
  (W4_of_ne m ρ c main_arg4 (by decide)).trans ((W3_of_ne m ρ c main_arg4 (by decide)).trans (W2_arg4 m ρ c))
theorem W4_arg5 (c : Dev nD) : W4 m ρ c (Proc.devRef .tc main_arg5) = m ((c : Thread nD τ).loc main_arg5) :=
  (W4_of_ne m ρ c main_arg5 (by decide)).trans ((W3_of_ne m ρ c main_arg5 (by decide)).trans (W2_arg5 m ρ c))
theorem W4_arg6 (c : Dev nD) : W4 m ρ c (Proc.devRef .tc main_arg6) = m ((c : Thread nD τ).loc main_arg6) :=
  (W4_of_ne m ρ c main_arg6 (by decide)).trans ((W3_of_ne m ρ c main_arg6 (by decide)).trans (W2_arg6 m ρ c))
theorem W4_arg7 (c : Dev nD) : W4 m ρ c (Proc.devRef .tc main_arg7) = m ((c : Thread nD τ).loc main_arg7) :=
  (W4_of_ne m ρ c main_arg7 (by decide)).trans ((W3_of_ne m ρ c main_arg7 (by decide)).trans (W2_arg7 m ρ c))

/-! ## The first layer -/

/-- After the first region: the features times the first weights. -/
def product1 (c : Dev nD) : S100000x128.Idx → EReal :=
  Spec.rowsTimes (n := 100000) (k := 256) (p := 128) (feats m c) (weights1 m c)

theorem W1_v0 (c : Dev nD) : W1 m ρ c (Proc.devRef .tc main_v0) = product1 m c :=
  (W1_arr m ρ c 2).trans (Product1.out_eq (V0 m ρ) c)

/-- After the first host stretch: the product aggregated along the edges. -/
def layer1 (c : Dev nD) : S100000x128.Idx → EReal :=
  aggregate128 (F := Ideal) (product1 m c) (m ((c : Thread nD τ).loc main_arg5)) (m ((c : Thread nD τ).loc main_arg6)) (m ((c : Thread nD τ).loc main_arg7))

theorem W2_v13 (c : Dev nD) : W2 m ρ c (Proc.devRef .tc main_v13) = layer1 m c := by
  have h0 := W1_v0 m ρ c
  have h5 := W1_kept m ρ c main_arg5 (by decide)
  have h6 := W1_kept m ρ c main_arg6 (by decide)
  have h7 := W1_kept m ρ c main_arg7 (by decide)
  show StableHlo.after hostOps1 (W1 m ρ c) (Proc.devRef .tc main_v13) = _
  dsimp only [hostOps1]
  after_results
  rw [h0, h5, h6, h7]
  rfl

/-- ... and the first bias as a row. -/
theorem W2_v14 (c : Dev nD) (q : Fin 128) :
    (W2 m ρ c (Proc.devRef .tc main_v14) : S1x128.Idx → EReal) (ix2 (0 : Fin 1) q) = bias1 m c (ix1 q) := by
  have h2 := W1_kept m ρ c main_arg2 (by decide)
  show (StableHlo.after hostOps1 (W1 m ρ c) (Proc.devRef .tc main_v14) : S1x128.Idx → EReal) (ix2 (0 : Fin 1) q) = _
  dsimp only [hostOps1]
  after_results
  rw [h2]
  exact shapeCast_a_1a_apply _ _ (0 : Fin 1) q

/-- After the second region: the hidden activations. -/
def hidden (c : Dev nD) : S100000x128.Idx → EReal :=
  Spec.biasRelu (n := 100000) (d := 128) (layer1 m c) (fun q => bias1 m c (ix1 q))

theorem W3_v15 (c : Dev nD) : W3 m ρ c (Proc.devRef .tc main_v15) = hidden m c := by
  refine (W3_arr m ρ c 2).trans ((Hidden.out_eq (V2 m ρ) c).trans ?_)
  have hA : Hidden.agg (V2 m ρ) c = layer1 m c := W2_v13 m ρ c
  have hb : Hidden.bias (V2 m ρ) c = fun q => bias1 m c (ix1 q) := funext fun q => W2_v14 m ρ c q
  rw [hA, hb]
  rfl

/-! ## The second layer -/

/-- After the third region: the hidden activations times the second weights. -/
def product2 (c : Dev nD) : S100000x40.Idx → EReal :=
  Spec.rowsTimes (n := 100000) (k := 128) (p := 40) (hidden m c) (weights2 m c)

theorem W4_v16 (c : Dev nD) : W4 m ρ c (Proc.devRef .tc main_v16) = product2 m c := by
  refine (W4_arr m ρ c 2).trans ((Product2.out_eq (V3 m ρ) c).trans ?_)
  have hA : Product2.lhsArr (V3 m ρ) c = hidden m c := W3_v15 m ρ c
  have hB : Product2.rhsArr (V3 m ρ) c = weights2 m c := W3_arg3 m ρ c
  rw [hA, hB]
  rfl

/-- After the second host stretch: the second product aggregated along the edges. -/
def layer2 (c : Dev nD) : S100000x40.Idx → EReal :=
  aggregate40 (F := Ideal) (product2 m c) (m ((c : Thread nD τ).loc main_arg5)) (m ((c : Thread nD τ).loc main_arg6)) (m ((c : Thread nD τ).loc main_arg7))

theorem W5_v29 (c : Dev nD) : W5 m ρ c (Proc.devRef .tc main_v29) = layer2 m c := by
  have h0 := W4_v16 m ρ c
  have h5 := W4_arg5 m ρ c
  have h6 := W4_arg6 m ρ c
  have h7 := W4_arg7 m ρ c
  show StableHlo.after hostOps3 (W4 m ρ c) (Proc.devRef .tc main_v29) = _
  dsimp only [hostOps3]
  after_results
  rw [h0, h5, h6, h7]
  rfl

theorem W5_v30 (c : Dev nD) (q : Fin 40) :
    (W5 m ρ c (Proc.devRef .tc main_v30) : S1x40.Idx → EReal) (ix2 (0 : Fin 1) q) = bias2 m c (ix1 q) := by
  have h4 := W4_arg4 m ρ c
  show (StableHlo.after hostOps3 (W4 m ρ c) (Proc.devRef .tc main_v30) : S1x40.Idx → EReal) (ix2 (0 : Fin 1) q) = _
  dsimp only [hostOps3]
  after_results
  rw [h4]
  exact shapeCast_a_1a_apply _ _ (0 : Fin 1) q

/-- The program's result: the row-wise log-softmax of the biased second layer. -/
def result (c : Dev nD) : S100000x40.Idx → EReal :=
  Spec.biasLogSoftmax (n := 100000) (d := 40) (layer2 m c) (fun q => bias2 m c (ix1 q))

theorem W6_v31 (c : Dev nD) : W6 m ρ c (Proc.devRef .tc main_v31) = result m c := by
  refine (W6_arr m ρ c 2).trans ((Output.out_eq (V5 m ρ) c).trans ?_)
  have hA : Output.agg (V5 m ρ) c = layer2 m c := W5_v29 m ρ c
  have hb : Output.bias (V5 m ρ) c = fun q => bias2 m c (ix1 q) := funext fun q => W5_v30 m ρ c q
  rw [hA, hb]
  rfl

end Cert.KernelIdeal.Chain

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.RefValue.lean ====
/-
  The reference program's result as the same function of its arguments as the kernel program's.

  The reference is a straight line of host operations. Its generated run states the result as the operations' composed
  term, and the generated read lemmas read that term one operation at a time. Read at an index: the first
  `dot_general` is the product of the features and the first weights (`product1_eq`); the gather, the scaling and the
  scatter-add that follow are the edge aggregation, the same operations the kernel program applies on the host, kept
  closed (`layer1_eq`); the bias broadcast, the addition and the maximum with zero are `Spec.biasRelu` (`hidden_eq`);
  the second `dot_general` the second product; the second aggregation; and the inlined log-softmax — the row maximum as
  a fold of `max` from minus infinity (taking the maximum with minus infinity once more changes nothing), the shift,
  the exponentials' row sum from zero, its logarithm — is `Spec.biasLogSoftmax` (`result_eq`).
-/
import proofs.«170724_j11647951307437_1_alg».proof.Proof.RefRead
import proofs.«170724_j11647951307437_1_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

section HostChains
variable {F : FTy → Type} [FloatOps F]

/-- The edge aggregation at width 128: the rows of `S` gathered along the edges' sources (a negative source index counted
    from the end), each scaled by its edge's weight, added up at the edges' destinations from zero. -/
def aggregate128 (S : (⟨S100000x128, .f32⟩ : BufTy).Contents (Elt F)) (ew : (⟨S1600000, .f32⟩ : BufTy).Contents (Elt F))
    (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 S
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1 (broadcastInDim S1600000x1 ![0] bcast_S1600000_S1600000x1_0 ew)))

/-- The edge aggregation at width 40: the rows of `S` gathered along the edges' sources (a negative source index counted
    from the end), each scaled by its edge's weight, added up at the edges' destinations from zero. -/
def aggregate40 (S : (⟨S100000x40, .f32⟩ : BufTy).Contents (Elt F)) (ew : (⟨S1600000, .f32⟩ : BufTy).Contents (Elt F))
    (src dst : (⟨S1600000, .i32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (mulf (Host.gather gather_S100000x40_S1600000x1_S1600000x40_1_0_n_n_0_1_140 S
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1 (broadcastInDim S1600000x1 ![0] bcast_S1600000_S1600000x1_0 ew)))

end HostChains

variable (x0 : (⟨S100000x256, .f32⟩ : BufTy).Contents (Elt Ideal)) (x1 : (⟨S256x128, .f32⟩ : BufTy).Contents (Elt Ideal))
  (x2 : (⟨S128, .f32⟩ : BufTy).Contents (Elt Ideal)) (x3 : (⟨S128x40, .f32⟩ : BufTy).Contents (Elt Ideal))
  (x4 : (⟨S40, .f32⟩ : BufTy).Contents (Elt Ideal)) (x5 : (⟨S1600000, .f32⟩ : BufTy).Contents (Elt Ideal))
  (x6 x7 : (⟨S1600000, .i32⟩ : BufTy).Contents (Elt Ideal))

/-! ## The stages as functions of the arguments -/

def product1 : S100000x128.Idx → EReal := Spec.rowsTimes (n := 100000) (k := 256) (p := 128) x0 x1
def layer1 : S100000x128.Idx → EReal := aggregate128 (F := Ideal) (product1 x0 x1) x5 x6 x7
def hidden : S100000x128.Idx → EReal := Spec.biasRelu (n := 100000) (d := 128) (layer1 x0 x1 x5 x6 x7) (fun q => x2 (ix1 q))
def product2 : S100000x40.Idx → EReal := Spec.rowsTimes (n := 100000) (k := 128) (p := 40) (hidden x0 x1 x2 x5 x6 x7) x3
def layer2 : S100000x40.Idx → EReal := aggregate40 (F := Ideal) (product2 x0 x1 x2 x3 x5 x6 x7) x5 x6 x7
def result : S100000x40.Idx → EReal := Spec.biasLogSoftmax (n := 100000) (d := 40) (layer2 x0 x1 x2 x3 x5 x6 x7) (fun q => x4 (ix1 q))

/-! ## The first layer -/

theorem product1_eq : val_main_v0 (F := Ideal) x0 x1 = product1 x0 x1 := by
  funext i
  rw [val_main_v0_apply]
  show _ = ∑ q : Fin 256, x0 (ix2 (i 0) q) * x1 (ix2 q (i 1))
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

theorem layer1_eq : val_main_v13 (F := Ideal) x0 x1 x5 x6 x7 = layer1 x0 x1 x5 x6 x7 := by
  have h : val_main_v13 (F := Ideal) x0 x1 x5 x6 x7 = aggregate128 (F := Ideal) (val_main_v0 (F := Ideal) x0 x1) x5 x6 x7 := rfl
  rw [h, product1_eq]
  rfl

theorem hidden_eq : val_main_v17 (F := Ideal) x0 x1 x2 x5 x6 x7 = hidden x0 x1 x2 x5 x6 x7 := by
  funext i
  rw [val_main_v17_apply, val_main_v16_apply, val_main_v15_apply, val_main_v14_apply, val_main_call0_v0_apply, val_main_call0_cst_apply, layer1_eq]
  have e : idx_main_v14 (idx_main_v15 i) = ix1 (i 1) := funext fun a => Fin.ext (by match a with | ⟨0, _⟩ => rfl)
  rw [e]
  rfl

/-! ## The second layer -/

theorem product2_eq : val_main_v18 (F := Ideal) x0 x1 x2 x3 x5 x6 x7 = product2 x0 x1 x2 x3 x5 x6 x7 := by
  funext i
  rw [val_main_v18_apply, hidden_eq]
  show _ = ∑ q : Fin 128, hidden x0 x1 x2 x5 x6 x7 (ix2 (i 0) q) * x3 (ix2 q (i 1))
  refine Finset.sum_congr rfl fun k _ => ?_
  have el : lidx_main_v18 i k = ix2 (i 0) k := funext fun a => Fin.ext (by match a with | ⟨0, _⟩ => rfl | ⟨1, _⟩ => rfl)
  have er : ridx_main_v18 i k = ix2 k (i 1) := funext fun a => Fin.ext (by match a with | ⟨0, _⟩ => rfl | ⟨1, _⟩ => rfl)
  rw [el, er]
  rfl

theorem layer2_eq : val_main_v31 (F := Ideal) x0 x1 x2 x3 x5 x6 x7 = layer2 x0 x1 x2 x3 x5 x6 x7 := by
  have h : val_main_v31 (F := Ideal) x0 x1 x2 x3 x5 x6 x7 = aggregate40 (F := Ideal) (val_main_v18 (F := Ideal) x0 x1 x2 x3 x5 x6 x7) x5 x6 x7 := rfl
  rw [h, product2_eq]
  rfl

/-! ## The log-softmax -/

/-- The biased scores, read at (r, j). -/
theorem scores_apply (r : Fin 100000) (j : Fin 40) :
    val_main_v34 (F := Ideal) x0 x1 x2 x3 x4 x5 x6 x7 (ix2 r j) = Spec.biased (n := 100000) (d := 40) (layer2 x0 x1 x2 x3 x5 x6 x7) (fun q => x4 (ix1 q)) r j := by
  rw [val_main_v34_apply, val_main_v33_apply, val_main_v32_apply, layer2_eq]
  have e : idx_main_v32 (idx_main_v33 (ix2 r j)) = ix1 j := funext fun a => Fin.ext (by match a with | ⟨0, _⟩ => rfl)
  rw [e]
  rfl

/-- The row maximum, read at r: the fold of `max` from minus infinity over the row's biased scores. -/
theorem reduceMax_apply (y : FVec Ideal S100000x40 .f32) (h : S100000x40.Reduces [1] S100000) (r : Fin 100000) :
    Host.reduce FloatOps.maximumf y (constant (F := Ideal) S_ .f32 0xFF800000#32) reducesTo_S100000x40_S100000_d1 h_S_ (ix1 r)
      = (Finset.univ : Finset (Fin 40)).fold max Spec.negInfWord (fun j => y (ix2 r j)) := by
  rw [Host.reduce_eq_fold_single FloatOps.maximumf y _ reducesTo_S100000x40_S100000_d1 h h_S_]
  show (Finset.univ : Finset (Fin 40)).fold max Spec.negInfWord (y ∘ h.lift (ix1 r)) = _
  refine congrArg (fun f => Finset.fold max Spec.negInfWord f (Finset.univ : Finset (Fin 40))) (funext fun j => ?_)
  exact congrArg y (funext fun a => Fin.ext (by match a with | ⟨0, _⟩ => rfl | ⟨1, _⟩ => rfl))

theorem rowMax_apply (r : Fin 100000) :
    val_main_call1_v0 (F := Ideal) x0 x1 x2 x3 x4 x5 x6 x7 (ix1 r) = Spec.rowMax (n := 100000) (d := 40) (layer2 x0 x1 x2 x3 x5 x6 x7) (fun q => x4 (ix1 q)) r := by
  unfold val_main_call1_v0 val_main_call1_cst
  refine (reduceMax_apply (val_main_v34 (F := Ideal) x0 x1 x2 x3 x4 x5 x6 x7) (by decide) r).trans ?_
  unfold Spec.rowMax
  refine congrArg (fun f => Finset.fold max Spec.negInfWord f (Finset.univ : Finset (Fin 40))) (funext fun j => ?_)
  exact scores_apply x0 x1 x2 x3 x4 x5 x6 x7 r j

/-- The shifted scores, read at (r, j). -/
theorem shifted_apply (r : Fin 100000) (j : Fin 40) :
    val_main_call1_v5 (F := Ideal) x0 x1 x2 x3 x4 x5 x6 x7 (ix2 r j)
      = Spec.biased (n := 100000) (d := 40) (layer2 x0 x1 x2 x3 x5 x6 x7) (fun q => x4 (ix1 q)) r j
        - Spec.rowMax (n := 100000) (d := 40) (layer2 x0 x1 x2 x3 x5 x6 x7) (fun q => x4 (ix1 q)) r := by
  rw [val_main_call1_v5_apply]
  rw [val_main_call1_v4_apply]
  rw [val_main_call1_v3_apply]
  rw [val_main_call1_v2_apply]
  rw [val_main_call1_v1_apply]
  rw [val_main_call1_cst_0_apply]
  rw [scores_apply]
  have e : idx_main_call1_v3 (idx_main_call1_v4 (ix2 r j)) = ix1 r := funext fun a => Fin.ext (by match a with | ⟨0, _⟩ => rfl)
  rw [e]
  rw [rowMax_apply]
  show _ - max Spec.negInfWord (Spec.rowMax (n := 100000) (d := 40) (layer2 x0 x1 x2 x3 x5 x6 x7) (fun q => x4 (ix1 q)) r) = _
  unfold Spec.rowMax
  rw [Spec.max_fold_max]

theorem result_eq : val_main_v35 (F := Ideal) x0 x1 x2 x3 x4 x5 x6 x7 = result x0 x1 x2 x3 x4 x5 x6 x7 := by
  funext i
  obtain ⟨r, q, rfl⟩ : ∃ (r : Fin 100000) (q : Fin 40), i = ix2 r q := ⟨i 0, i 1, eq_ix2 i⟩
  rw [val_main_v35_apply, val_main_call1_v10_apply, val_main_call1_v9_apply, val_main_call1_v8_apply, val_main_call1_v7_apply, val_main_call1_cst_1_apply, shifted_apply]
  have e : idx_main_call1_v8 (idx_main_call1_v10 (ix2 r q)) = ix1 r := funext fun a => Fin.ext (by match a with | ⟨0, _⟩ => rfl)
  rw [e]
  have hs : ∀ k : Fin 40, val_main_call1_v6 (F := Ideal) x0 x1 x2 x3 x4 x5 x6 x7 (idx_main_call1_v7 (ix1 r) k)
      = Ideal.exp (Spec.biased (n := 100000) (d := 40) (layer2 x0 x1 x2 x3 x5 x6 x7) (fun q => x4 (ix1 q)) r k
          - Spec.rowMax (n := 100000) (d := 40) (layer2 x0 x1 x2 x3 x5 x6 x7) (fun q => x4 (ix1 q)) r) := fun k => by
    have ek : idx_main_call1_v7 (ix1 r) k = ix2 r k := funext fun a => Fin.ext (by match a with | ⟨0, _⟩ => rfl | ⟨1, _⟩ => rfl)
    rw [ek, val_main_call1_v6_apply, shifted_apply, Ideal.hostUnary_exp_def]
  rw [Finset.sum_congr rfl (fun k _ => hs k)]
  unfold result
  rw [Spec.biasLogSoftmax_apply, Ideal.subf_def, Ideal.hostUnary_log_def, Ideal.ofBits_def, Ideal.ofBits_zero_f32, zero_add]

end Cert.ReferenceIdeal.RefValue

end
-- ==== Proof.lean ====
/-
  A two-layer graph convolution with a log-softmax head: the Pallas program against its jnp reference, over the
  extended reals.

  Both programs compute, for node features X, weights W1, W2, biases b1, b2 and a weighted edge list,
      log_softmax (agg ((relu (agg (X · W1) + b1)) · W2) + b2)
  where `agg` gathers rows along the edges' sources, scales them by the edge weights and adds them up at the edges'
  destinations. The kernel program does the two matrix products, the bias-and-relu and the bias-and-log-softmax in four
  kernel regions over 25 row blocks each, and `agg` on the host; the reference does everything on the host. On extended
  reals a change of float format is the identity, a block product into a zero accumulator and a host `dot_general` are
  the same sum, and the two spellings of the log-softmax differ only by a maximum with minus infinity; `agg` is the
  same host computation on both sides and is never opened. No law that needs finite inputs is used.

  The modules: Spec (the whole-array functions), FeatureProduct1 / HiddenLayer / FeatureProduct2 / LogSoftmax (what each
  kernel region leaves in its output array), KernelChain (the kernel program's result through the regions and the host
  stretches), KernelRun (the kernel program's run with its result named), RefRun / RefRead (the reference's run and its
  operations read at an index), RefValue (the reference's result as the same function). Here: the two results agree
  (`results_agree`), the three frames, and the claim.
-/
import proofs.«170724_j11647951307437_1_alg».proof.Defs
import proofs.«170724_j11647951307437_1_alg».proof.Proof.Gen.Kernel
import proofs.«170724_j11647951307437_1_alg».proof.Proof.Gen.Kernel.Skeleton
import proofs.«170724_j11647951307437_1_alg».proof.Proof.Gen.Kernel.Launch
import proofs.«170724_j11647951307437_1_alg».proof.Proof.Gen.Kernel.Points
import proofs.«170724_j11647951307437_1_alg».proof.Proof.Gen.Kernel.Frame
import proofs.«170724_j11647951307437_1_alg».proof.Proof.Gen.KernelIdeal
import proofs.«170724_j11647951307437_1_alg».proof.Proof.Gen.KernelIdeal.Skeleton
import proofs.«170724_j11647951307437_1_alg».proof.Proof.Gen.KernelIdeal.Launch
import proofs.«170724_j11647951307437_1_alg».proof.Proof.Gen.KernelIdeal.Points
import proofs.«170724_j11647951307437_1_alg».proof.Proof.Gen.KernelIdeal.Frame
import proofs.«170724_j11647951307437_1_alg».proof.Proof.Gen.ReferenceIdeal
import proofs.«170724_j11647951307437_1_alg».proof.Proof.Gen.Pre_finite_inputs
import proofs.«170724_j11647951307437_1_alg».proof.Proof.KernelRun
import proofs.«170724_j11647951307437_1_alg».proof.Proof.KernelChain
import proofs.«170724_j11647951307437_1_alg».proof.Proof.RefRun
import proofs.«170724_j11647951307437_1_alg».proof.Proof.RefRead
import proofs.«170724_j11647951307437_1_alg».proof.Proof.RefValue
import Idealize.ShloMosaic.Adequacy
import Idealize.ShloMosaic.Init

set_option maxRecDepth 16384

noncomputable section

namespace Cert.Proof

open Idealize.ShloMosaic Idealize.SL.Sem

/-- The reference's function of the arguments is the kernel program's: the same whole-array functions around the same
    edge aggregation (the two programs' shape records and side conditions are spelt the same). -/
theorem results_agree (m : (ℓ : Loc Cert.KernelIdeal.nD Cert.KernelIdeal.τ Cert.KernelIdeal.sig) → Buf (Elt Ideal) ℓ) (c : Dev Cert.KernelIdeal.nD) :
    Cert.ReferenceIdeal.RefValue.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Chain.result m c := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the same function of the (agreeing) arguments. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.W6_v31 m ρ c), (h c).2⟩)
      (Cert.KernelIdeal.GenP.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v35_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    exact results_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
